-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x2048 : Shape := ⟨2, ![128, 2048]⟩
abbrev S2048 : Shape := ⟨1, ![2048]⟩
abbrev S_ : Shape := ⟨0, ![]⟩
abbrev S1x1600000 : Shape := ⟨2, ![1, 1600000]⟩
abbrev S1600000 : Shape := ⟨1, ![1600000]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x2048 : S_.BroadcastsInDim S128x2048 (![] : Fin 0 → Fin S128x2048.rank)
  reducesTo_S128x2048_S_d0_1 : S128x2048.ReducesTo [0, 1] S_
  bcast_S_S2048 : S_.BroadcastsInDim S2048 (![] : Fin 0 → Fin S2048.rank)
  reducesTo_S2048_S_d0 : S2048.ReducesTo [0] S_
  slices_S2x1600000_S1x1600000_0_0 : S2x1600000.Slices ![0, 0] S1x1600000
  shapeCasts_S1x1600000_S1600000 : S1x1600000.ShapeCasts S1600000
  bcast_S_S1600000 : S_.BroadcastsInDim S1600000 (![] : Fin 0 → Fin S1600000.rank)
  reducesTo_S1600000_S_d0 : S1600000.ReducesTo [0] S_

variable [Facts]

def fn_part1 {F : FTy → Type} [FloatOps F] (main_arg1 : IVec S2x1600000 32) (main_arg5 : FVec F S2048 .f32) (main_v13 : IVec S_ 1) (main_v16 : IVec S128x2048 1) : IVec S_ 1 :=
  let main_c_5 : IVec S_ 1 := constantI S_ 1 1#1
  let main_v17 : IVec S_ 1 := (fun x v => Host.reduce IntOp.andi x v reducesTo_S128x2048_S_d0_1 h_S_) main_v16 main_c_5
  let main_v18 : IVec S_ 1 := andi main_v13 main_v17
  let main_v19 : FVec F S2048 .f32 := Host.absf main_arg5
  let main_cst_6 : FVec F S_ .f32 := constant S_ .f32 0x7F800000#32
  let main_v20 : FVec F S2048 .f32 := broadcastInDim S2048 ![] bcast_S_S2048 main_cst_6
  let main_v21 : IVec S2048 1 := cmpf .olt main_v19 main_v20
  let main_c_7 : IVec S_ 1 := constantI S_ 1 1#1
  let main_v22 : IVec S_ 1 := (fun x v => Host.reduce IntOp.andi x v reducesTo_S2048_S_d0 h_S_) main_v21 main_c_7
  let main_v23 : IVec S_ 1 := andi main_v18 main_v22
  let main_v24 : IVec S1x1600000 32 := (extractStridedSlice S1x1600000 ![0, 0] · slices_S2x1600000_S1x1600000_0_0) main_arg1
  let main_v25 : IVec S1600000 32 := shapeCast S1600000 main_v24 shapeCasts_S1x1600000_S1600000
  let main_c_8 : IVec S_ 32 := constantI S_ 32 0#32
  let main_v26 : IVec S1600000 32 := broadcastInDim S1600000 ![] bcast_S_S1600000 main_c_8
  let main_v27 : IVec S1600000 1 := cmpi .sge main_v25 main_v26
  let main_v28 : IVec S1x1600000 32 := (extractStridedSlice S1x1600000 ![0, 0] · slices_S2x1600000_S1x1600000_0_0) main_arg1
  let main_v29 : IVec S1600000 32 := shapeCast S1600000 main_v28 shapeCasts_S1x1600000_S1600000
  let main_c_9 : IVec S_ 32 := constantI S_ 32 100000#32
  let main_v30 : IVec S1600000 32 := broadcastInDim S1600000 ![] bcast_S_S1600000 main_c_9
  let main_v31 : IVec S1600000 1 := cmpi .slt main_v29 main_v30
  let main_v32 : IVec S1600000 1 := andi main_v27 main_v31
  let main_c_10 : IVec S_ 1 := constantI S_ 1 1#1
  let main_v33 : IVec S_ 1 := (fun x v => Host.reduce IntOp.andi x v reducesTo_S1600000_S_d0 h_S_) main_v32 main_c_10
  let main_v34 : IVec S_ 1 := andi main_v23 main_v33
  main_v34

def fn {F : FTy → Type} [FloatOps F] (main_arg0 : FVec F S100000x128 .f32) (main_arg1 : IVec S2x1600000 32) (main_arg2 : FVec F S128x128 .f32) (main_arg3 : FVec F S128 .f32) (main_arg4 : FVec F S128x2048 .f32) (main_arg5 : FVec F S2048 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x2048 .f32 := Host.absf main_arg4
  let main_cst_4 : FVec F S_ .f32 := constant S_ .f32 0x7F800000#32
  let main_v15 : FVec F S128x2048 .f32 := broadcastInDim S128x2048 ![] bcast_S_S128x2048 main_cst_4
  let main_v16 : IVec S128x2048 1 := cmpf .olt main_v14 main_v15
  fn_part1 (F := F) main_arg1 main_arg5 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x2048 : Shape := ⟨2, ![128, 2048]⟩
abbrev S2048 : Shape := ⟨1, ![2048]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1 : Shape := ⟨1, ![1]⟩
abbrev S1x1 : Shape := ⟨2, ![1, 1]⟩
abbrev S1600000x128 : Shape := ⟨2, ![1600000, 128]⟩
abbrev S100000x2048 : Shape := ⟨2, ![100000, 2048]⟩
abbrev S800x128 : Shape := ⟨2, ![800, 128]⟩
abbrev S800x2048 : Shape := ⟨2, ![800, 2048]⟩
abbrev S1x128 : Shape := ⟨2, ![1, 128]⟩
abbrev S1x2048 : Shape := ⟨2, ![1, 2048]⟩

abbrev nBuf : Space → Nat
  | .hbm => 40
  | .vmem => 10
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x2048, .f32⟩
  | .hbm, ⟨5, _⟩ => ⟨S2048, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S_, .i32⟩
  | .hbm, ⟨11, _⟩ => ⟨S1600000, .i32⟩
  | .hbm, ⟨12, _⟩ => ⟨S1600000, .i1⟩
  | .hbm, ⟨13, _⟩ => ⟨S_, .i32⟩
  | .hbm, ⟨14, _⟩ => ⟨S1600000, .i32⟩
  | .hbm, ⟨15, _⟩ => ⟨S1600000, .i32⟩
  | .hbm, ⟨16, _⟩ => ⟨S1600000, .i32⟩
  | .hbm, ⟨17, _⟩ => ⟨S1600000x1, .i32⟩
  | .hbm, ⟨18, _⟩ => ⟨S1, .i32⟩
  | .hbm, ⟨19, _⟩ => ⟨S_, .i32⟩
  | .hbm, ⟨20, _⟩ => ⟨S1600000x1, .i32⟩
  | .hbm, ⟨21, _⟩ => ⟨S1600000x1, .i1⟩
  | .hbm, ⟨22, _⟩ => ⟨S1x1, .i32⟩
  | .hbm, ⟨23, _⟩ => ⟨S1600000x1, .i32⟩
  | .hbm, ⟨24, _⟩ => ⟨S1600000x1, .i1⟩
  | .hbm, ⟨25, _⟩ => ⟨S1600000x1, .i1⟩
  | .hbm, ⟨26, _⟩ => ⟨S_, .i1⟩
  | .hbm, ⟨27, _⟩ => ⟨S1600000, .i1⟩
  | .hbm, ⟨28, _⟩ => ⟨S1600000x128, .f32⟩
  | .hbm, ⟨29, _⟩ => ⟨S1600000x128, .i1⟩
  | .hbm, ⟨30, _⟩ => ⟨S_, .f32⟩
  | .hbm, ⟨31, _⟩ => ⟨S1600000x128, .f32⟩
  | .hbm, ⟨32, _⟩ => ⟨S1600000x128, .f32⟩
  | .hbm, ⟨33, _⟩ => ⟨S_, .f32⟩
  | .hbm, ⟨34, _⟩ => ⟨S100000x128, .f32⟩
  | .hbm, ⟨35, _⟩ => ⟨S1600000x1, .i32⟩
  | .hbm, ⟨36, _⟩ => ⟨S100000x128, .f32⟩
  | .hbm, ⟨37, _⟩ => ⟨S128x128, .bf16⟩
  | .hbm, ⟨38, _⟩ => ⟨S128x2048, .bf16⟩
  | .hbm, ⟨39, _⟩ => ⟨S100000x2048, .f32⟩
  | .local _ .vmem, ⟨0, _⟩ => ⟨S800x128, .f32⟩
  | .local _ .vmem, ⟨1, _⟩ => ⟨S800x128, .f32⟩
  | .local _ .vmem, ⟨2, _⟩ => ⟨S800x128, .f32⟩
  | .local _ .vmem, ⟨3, _⟩ => ⟨S800x128, .f32⟩
  | .local _ .vmem, ⟨4, _⟩ => ⟨S128x128, .bf16⟩
  | .local _ .vmem, ⟨5, _⟩ => ⟨S128, .f32⟩
  | .local _ .vmem, ⟨6, _⟩ => ⟨S128x2048, .bf16⟩
  | .local _ .vmem, ⟨7, _⟩ => ⟨S2048, .f32⟩
  | .local _ .vmem, ⟨8, _⟩ => ⟨S800x2048, .f32⟩
  | .local _ .vmem, ⟨9, _⟩ => ⟨S800x2048, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_call0_c : Ref sig .tc := ⟨.hbm, 10, rfl⟩
abbrev main_call0_v0 : Ref sig .tc := ⟨.hbm, 11, rfl⟩
abbrev main_call0_v1 : Ref sig .tc := ⟨.hbm, 12, rfl⟩
abbrev main_call0_c_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_c_1 : Ref sig .tc := ⟨.hbm, 18, rfl⟩
abbrev main_call0_c_2 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_3 : Ref sig .tc := ⟨.hbm, 26, rfl⟩
abbrev main_call0_v12 : Ref sig .tc := ⟨.hbm, 27, rfl⟩
abbrev main_call0_v13 : Ref sig .tc := ⟨.hbm, 28, rfl⟩
abbrev main_call0_v14 : Ref sig .tc := ⟨.hbm, 29, rfl⟩
abbrev main_call0_cst : Ref sig .tc := ⟨.hbm, 30, rfl⟩
abbrev main_call0_v15 : Ref sig .tc := ⟨.hbm, 31, rfl⟩
abbrev main_v4 : Ref sig .tc := ⟨.hbm, 32, rfl⟩
abbrev main_cst : Ref sig .tc := ⟨.hbm, 33, rfl⟩
abbrev main_v5 : Ref sig .tc := ⟨.hbm, 34, rfl⟩
abbrev main_v6 : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S800x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S800x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S800x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x1 : S_.BroadcastsInDim S1600000x1 (![] : Fin 0 → Fin S1600000x1.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  reducesTo_S1600000x1_S1600000_d1 : S1600000x1.ReducesTo [1] S1600000
  h_S_ : 0 < S_.numel
  bcast_S1600000_S1600000x128_0 : S1600000.BroadcastsInDim S1600000x128 (![0] : Fin 1 → Fin S1600000x128.rank)
  bcast_S_S1600000x128 : S_.BroadcastsInDim S1600000x128 (![] : Fin 0 → Fin S1600000x128.rank)
  bcast_S_S100000x128 : S_.BroadcastsInDim S100000x128 (![] : Fin 0 → Fin S100000x128.rank)
  bitsLt_bf16_f32 : FTy.bits .bf16 < FTy.bits .f32
  inb_S800x128_S800x128_0_0 : ∀ a, (![0, 0] : Fin 2 → Nat) a + S800x128.size a ≤ S800x128.size a
  h_S800x128 : 0 < S800x128.numel
  shapeCasts_S800x128_S800x128 : S800x128.ShapeCasts S800x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128_S128_0 : ∀ a, (![0] : Fin 1 → Nat) a + S128.size a ≤ S128.size a
  h_S128 : 0 < S128.numel
  shapeCasts_S128_S1x128 : S128.ShapeCasts S1x128
  broadcasts_S1x128_S800x128 : S1x128.Broadcasts S800x128
  inb_S128x2048_S128x2048_0_0 : ∀ a, (![0, 0] : Fin 2 → Nat) a + S128x2048.size a ≤ S128x2048.size a
  h_S128x2048 : 0 < S128x2048.numel
  shapeCasts_S128x2048_S128x2048 : S128x2048.ShapeCasts S128x2048
  inb_S2048_S2048_0 : ∀ a, (![0] : Fin 1 → Nat) a + S2048.size a ≤ S2048.size a
  h_S2048 : 0 < S2048.numel
  shapeCasts_S2048_S1x2048 : S2048.ShapeCasts S1x2048
  broadcasts_S1x2048_S800x2048 : S1x2048.Broadcasts S800x2048
  inb_S800x2048_S800x2048_0_0 : ∀ a, (![0, 0] : Fin 2 → Nat) a + S800x2048.size a ≤ S800x2048.size a
  h_S800x2048 : 0 < S800x2048.numel
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S800x128_S128x128_S800x128_1_0_0_1_n_n_wf : DotDims.WF S800x128 S128x128 S800x128 [1] [0] [0] [1] [] []
  dot_S800x128_S128x2048_S800x2048_1_0_0_1_n_n_wf : DotDims.WF S800x128 S128x2048 S800x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S800x128.size a ≤ S100000x128.size a
  hwx0_0 : ∀ i : grid0.Coords, EltTy.bits .f32 = 32 ∨ (Rect.block (s := S100000x128) S800x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S800x128.size a ≤ S100000x128.size a
  hwx0_1 : ∀ i : grid0.Coords, EltTy.bits .f32 = 32 ∨ (Rect.block (s := S100000x128) S800x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .bf16 = 32 ∨ (Rect.block (s := S128x128) S128x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x2048.size a ≤ S128x2048.size a
  hwx0_4 : ∀ i : grid0.Coords, EltTy.bits .bf16 = 32 ∨ (Rect.block (s := S128x2048) S128x2048.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S2048.size a ≤ S2048.size a
  hwx0_5 : ∀ i : grid0.Coords, EltTy.bits .f32 = 32 ∨ (Rect.block (s := S2048) S2048.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S800x2048.size a ≤ S100000x2048.size a
  hwx0_6 : ∀ i : grid0.Coords, EltTy.bits .f32 = 32 ∨ (Rect.block (s := S100000x2048) S800x2048.size (cc0_transform_6 i) (hinb0_6 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S800x128_S128x128_S800x128_1_0_0_1_n_n : DotDims S800x128 S128x128 S800x128 where
  lhsContracting := [1]
  rhsContracting := [0]
  lhsNonContracting := [0]
  rhsNonContracting := [1]
  lhsBatch := []
  rhsBatch := []
  wf := dot_S800x128_S128x128_S800x128_1_0_0_1_n_n_wf
def dot_S800x128_S128x2048_S800x2048_1_0_0_1_n_n : DotDims S800x128 S128x2048 S800x2048 where
  lhsContracting := [1]
  rhsContracting := [0]
  lhsNonContracting := [0]
  rhsNonContracting := [1]
  lhsBatch := []
  rhsBatch := []
  wf := dot_S800x128_S128x2048_S800x2048_1_0_0_1_n_n_wf

abbrev win0_0 : Pipeline.Window sig grid0 :=
  Pipeline.Window.ofSpec (Memref.whole main_arg0) S800x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S800x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v9) S128x2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S2048.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v10) S800x2048.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x2048 : Shape := ⟨2, ![128, 2048]⟩
abbrev S2048 : Shape := ⟨1, ![2048]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩
abbrev S100000x2048 : Shape := ⟨2, ![100000, 2048]⟩
abbrev S1x2048 : Shape := ⟨2, ![1, 2048]⟩

abbrev nBuf : Space → Nat
  | .hbm => 32
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x2048, .f32⟩
  | .hbm, ⟨5, _⟩ => ⟨S2048, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S_, .i32⟩
  | .hbm, ⟨11, _⟩ => ⟨S1600000, .i32⟩
  | .hbm, ⟨12, _⟩ => ⟨S1600000, .i1⟩
  | .hbm, ⟨13, _⟩ => ⟨S_, .i32⟩
  | .hbm, ⟨14, _⟩ => ⟨S1600000, .i32⟩
  | .hbm, ⟨15, _⟩ => ⟨S1600000, .i32⟩
  | .hbm, ⟨16, _⟩ => ⟨S1600000, .i32⟩
  | .hbm, ⟨17, _⟩ => ⟨S1600000x1, .i32⟩
  | .hbm, ⟨18, _⟩ => ⟨S1600000x128, .f32⟩
  | .hbm, ⟨19, _⟩ => ⟨S_, .f32⟩
  | .hbm, ⟨20, _⟩ => ⟨S100000x128, .f32⟩
  | .hbm, ⟨21, _⟩ => ⟨S1600000x1, .i32⟩
  | .hbm, ⟨22, _⟩ => ⟨S100000x128, .f32⟩
  | .hbm, ⟨23, _⟩ => ⟨S100000x128, .f32⟩
  | .hbm, ⟨24, _⟩ => ⟨S100000x128, .f32⟩
  | .hbm, ⟨25, _⟩ => ⟨S1x128, .f32⟩
  | .hbm, ⟨26, _⟩ => ⟨S100000x128, .f32⟩
  | .hbm, ⟨27, _⟩ => ⟨S100000x128, .f32⟩
  | .hbm, ⟨28, _⟩ => ⟨S100000x2048, .f32⟩
  | .hbm, ⟨29, _⟩ => ⟨S1x2048, .f32⟩
  | .hbm, ⟨30, _⟩ => ⟨S100000x2048, .f32⟩
  | .hbm, ⟨31, _⟩ => ⟨S100000x2048, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S2048_S1x2048_1 : S2048.BroadcastsInDim S1x2048 (![1] : Fin 1 → Fin S1x2048.rank)
  bcast_S1x2048_S100000x2048_0_1 : S1x2048.BroadcastsInDim S100000x2048 (![0, 1] : Fin 2 → Fin S100000x2048.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  dot_S100000x128_S128x2048_S100000x2048_1_0_0_1_n_n_wf : DotDims.WF S100000x128 S128x2048 S100000x2048 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x2048_S100000x2048_1_0_0_1_n_n : DotDims S100000x128 S128x2048 S100000x2048 where
  lhsContracting := [1]
  rhsContracting := [0]
  lhsNonContracting := [0]
  rhsNonContracting := [1]
  lhsBatch := []
  rhsBatch := []
  wf := dot_S100000x128_S128x2048_S100000x2048_1_0_0_1_n_n_wf

class Facts : Prop extends Facts₀ where

variable [Facts]
-- ==== Proof.LibMask.lean ====
/-
  General facts about one-bit masks and signed row indices.

  * A reduction by `and` of an array of ones, started from one, is one at every result index — also after the result
    is broadcast to a larger shape.
  * A signed 32-bit word `s` with `0 ≤ s < 100000` is left alone by the "add the length to a negative index" step, and
    the result passes the range test `0 ≤ · ≤ 99999`.
-/
import Idealize.ShloMosaic.Lib.Affine
import Idealize.ShloMosaic.Lib.ValueIdx
import Idealize.ShloMosaic.PureOps.Reduce

namespace Cert.LibMask

open Idealize.ShloMosaic

/-- A left fold by `and` over ones, from one, is one. -/
theorem foldl_andi_one {ι : Type} (f : ι → BitVec 1) (hf : ∀ n, f n = 1#1) :
    ∀ l : List ι, l.foldl (fun r n => IntOp.andi r (f n)) 1#1 = 1#1
  | [] => rfl
  | a :: l => by
    have h11 : IntOp.andi (1#1 : BitVec 1) 1#1 = 1#1 := by decide
    rw [List.foldl_cons, hf a, h11]
    exact foldl_andi_one f hf l

/-- A `stablehlo.reduce` by `and` of an all-ones array from the constant one is one. -/
theorem reduce_andi_one {s t u : Shape} {axes : List (Fin s.rank)} (x : s.Idx → BitVec 1) (init : u.Idx → BitVec 1)
    (h : s.ReducesTo axes t) (hu : 0 < u.numel) (hx : ∀ i, x i = 1#1) (hinit : ∀ k, init k = 1#1) (j : t.Idx) :
    Host.reduce IntOp.andi x init h hu j = 1#1 := by
  rw [Host.reduce_eq_foldl, hinit]
  exact foldl_andi_one x hx _

/-- The same after the result is broadcast along new axes. -/
theorem bcast_reduce_andi_one {s t u T : Shape} {axes : List (Fin s.rank)} (x : s.Idx → BitVec 1) (init : u.Idx → BitVec 1)
    (h : s.ReducesTo axes t) (hu : 0 < u.numel) (dims : Fin t.rank → Fin T.rank) (hb : t.BroadcastsInDim T dims)
    (hx : ∀ i, x i = 1#1) (hinit : ∀ k, init k = 1#1) (i : T.Idx) :
    broadcastInDim T dims hb (Host.reduce IntOp.andi x init h hu) i = 1#1 := by
  unfold broadcastInDim
  exact reduce_andi_one x init h hu hx hinit _

/-- A valid row number is not moved by the negative-index step and passes the range test. -/
theorem norm_index_in_range (s : BitVec 32) (h0 : (0#32 : BitVec 32).toInt ≤ s.toInt)
    (h1 : s.toInt < (100000#32 : BitVec 32).toInt) :
    IntOp.andi
      (IntOp.cmpi .sge (Scalar.select (IntOp.cmpi .slt s 0#32) (IntOp.addi s 100000#32) s) 0#32)
      (IntOp.cmpi .sle (Scalar.select (IntOp.cmpi .slt s 0#32) (IntOp.addi s 100000#32) s) 99999#32) = 1#1 := by
  have z : (0#32 : BitVec 32).toInt = 0 := by decide
  have a : (99999#32 : BitVec 32).toInt = 99999 := by decide
  have b : (100000#32 : BitVec 32).toInt = 100000 := by decide
  have hneg : IntOp.cmpi .slt s 0#32 = 0#1 :=
    ValueIdx.eq_zero_of_ne_one (fun h => by have := IntOp.cmpi_slt.1 h; omega)
  rw [hneg, ValueIdx.select_zero]
  exact IntOp.andi_eq_one.2 ⟨IntOp.cmpi_sge.2 h0, IntOp.cmpi_sle.2 (by omega)⟩

end Cert.LibMask
-- ==== Proof.HostSide.lean ====
/-
  The arrays the host operations hand to the kernel.

  Before the kernel runs, the program computes on the host: the two rows of the edge list (sources and targets); the
  source rows of the feature matrix, by a take that first adds the length to a negative index and then replaces every
  row whose index is still outside `0 … 99999` by a fill value; the scatter-add of those rows at the targets into a zero
  matrix (the aggregate); and the two weight matrices narrowed to half precision.

  When every source is a valid row number the fill never applies: the range test is true for every edge, so the taken
  rows are the gathered rows. The host operations come in three stretches (the edge rows; the take; the scatter-add and
  the narrowing), and the value of each buffer is read off stretch by stretch.
-/
import proofs.«421285_j9749575762319_1_alg».proof.Proof.Gen.KernelIdeal.Frame
import proofs.«421285_j9749575762319_1_alg».proof.Proof.LibMask
import Idealize.ShloMosaic.Lib.StableHlo.Run
import Idealize.ShloMosaic.Lib.Pipeline.Frame
import Idealize.ShloMosaic.Lib.ValueIdx

noncomputable section

namespace Cert.KernelIdeal.Hand

open Cert.KernelIdeal Cert.KernelIdeal.Gen Idealize.ShloMosaic Idealize.ShloMosaic.TcCoe Idealize.SL.Sem Idealize.ShloMosaic.StableHlo

variable {F : FTy → Type} [FloatOps F]

/-! ## The host values, as functions of the arguments -/

/-- The edge sources: row 0 of the edge list. -/
abbrev srcK (a1 : IVec S2x1600000 32) : IVec S1600000 32 :=
  shapeCast S1600000 (extractStridedSlice S1x1600000 ![0, 0] a1 slices_S2x1600000_S1x1600000_0_0) shapeCasts_S1x1600000_S1600000

/-- The edge targets: row 1 of the edge list. -/
abbrev dstK (a1 : IVec S2x1600000 32) : IVec S1600000 32 :=
  shapeCast S1600000 (extractStridedSlice S1x1600000 ![1, 0] a1 slices_S2x1600000_S1x1600000_1_0) shapeCasts_S1x1600000_S1600000

/-- The sources `s` with the length added to the negative ones, as a column of start indices. -/
def nidxK (s : IVec S1600000 32) : IVec S1600000x1 32 :=
  broadcastInDim S1600000x1 ![0] bcast_S1600000_S1600000x1_0
    (select (cmpi .slt s (broadcastInDim S1600000 ![] bcast_S_S1600000 (constantI S_ 32 0#32)))
      (addi s (broadcastInDim S1600000 ![] bcast_S_S1600000 (constantI S_ 32 100000#32))) s)

/-- The range test `0 ≤ index ≤ 99999` of each start index. -/
def testK (s : IVec S1600000 32) : IVec S1600000x1 1 :=
  andi (cmpi .sge (nidxK s) (broadcastInDim S1600000x1 ![] bcast_S_S1600000x1 (constantI S_ 32 0#32)))
    (cmpi .sle (nidxK s) (broadcastInDim S1600000x1 ![0, 1] bcast_S1x1_S1600000x1_0_1
      (broadcastInDim S1x1 ![1] bcast_S1_S1x1_1 (constantI S1 32 99999#32))))

/-- The test, per edge, repeated along the feature axis. -/
def maskK (s : IVec S1600000 32) : IVec S1600000x128 1 :=
  broadcastInDim S1600000x128 ![0] bcast_S1600000_S1600000x128_0
    (Host.reduce IntOp.andi (testK s) (constantI S_ 1 1#1) reducesTo_S1600000x1_S1600000_d1 h_S_)

/-- The gathered source rows. -/
def gatheredK (a0 : FVec F S100000x128 .f32) (s : IVec S1600000 32) : FVec F S1600000x128 .f32 :=
  Host.gather gather_S100000x128_S1600000x1_S1600000x128_1_0_n_n_0_1_1128 a0 (nidxK s)

/-- The taken rows: the gathered rows, those failing the range test replaced by the fill. -/
def takenK (a0 : FVec F S100000x128 .f32) (s : IVec S1600000 32) : FVec F S1600000x128 .f32 :=
  select (maskK s) (gatheredK a0 s) (broadcastInDim S1600000x128 ![] bcast_S_S1600000x128 (constant S_ .f32 0x7FC00000#32))

/-- The scatter-add of edge rows `u` at the targets `d` into a zero matrix. -/
def scatterK (d : IVec S1600000 32) (u : FVec F S1600000x128 .f32) : FVec F S100000x128 .f32 :=
  Host.scatterAdd scatter_S100000x128_S1600000x1_S1600000x128_1_0_0_1
    (broadcastInDim S100000x128 ![] bcast_S_S100000x128 (constant S_ .f32 0x00000000#32))
    (broadcastInDim S1600000x1 ![0] bcast_S1600000_S1600000x1_0 d) u

/-- The aggregate as the kernel's program computes it. -/
def aggFill (a0 : FVec F S100000x128 .f32) (a1 : IVec S2x1600000 32) : FVec F S100000x128 .f32 :=
  scatterK (dstK a1) (takenK a0 (srcK a1))

/-- The aggregate of the gathered rows themselves. -/
def aggPlain (a0 : FVec F S100000x128 .f32) (a1 : IVec S2x1600000 32) : FVec F S100000x128 .f32 :=
  scatterK (dstK a1) (gatheredK a0 (srcK a1))

/-! ## With every source in range the fill never applies -/

/-- The range test holds of every edge whose source is a valid row number. -/
theorem testK_one (s : IVec S1600000 32)
    (hsrc : ∀ e : S1600000.Idx, (0#32 : BitVec 32).toInt ≤ (s e).toInt ∧ (s e).toInt < (100000#32 : BitVec 32).toInt)
    (p : S1600000x1.Idx) : testK s p = 1#1 := by
  unfold testK nidxK
  unfold broadcastInDim
  exact Cert.LibMask.norm_index_in_range _ (hsrc _).1 (hsrc _).2

theorem maskK_one (s : IVec S1600000 32)
    (hsrc : ∀ e : S1600000.Idx, (0#32 : BitVec 32).toInt ≤ (s e).toInt ∧ (s e).toInt < (100000#32 : BitVec 32).toInt)
    (i : S1600000x128.Idx) : maskK s i = 1#1 := by
  unfold maskK
  exact Cert.LibMask.bcast_reduce_andi_one _ _ _ _ _ _ (testK_one s hsrc) (fun _ => rfl) i

theorem takenK_eq (a0 : FVec F S100000x128 .f32) (s : IVec S1600000 32)
    (hsrc : ∀ e : S1600000.Idx, (0#32 : BitVec 32).toInt ≤ (s e).toInt ∧ (s e).toInt < (100000#32 : BitVec 32).toInt) :
    takenK a0 s = gatheredK a0 s := by
  funext i
  unfold takenK
  rw [ValueIdx.select_apply, maskK_one s hsrc i, ValueIdx.select_one]

theorem aggFill_eq (a0 : FVec F S100000x128 .f32) (a1 : IVec S2x1600000 32)
    (hsrc : ∀ e : S1600000.Idx, (0#32 : BitVec 32).toInt ≤ (srcK a1 e).toInt ∧ (srcK a1 e).toInt < (100000#32 : BitVec 32).toInt) :
    aggFill a0 a1 = aggPlain a0 a1 := by
  unfold aggFill aggPlain
  rw [takenK_eq a0 (srcK a1) hsrc]

/-! ## The three stretches of host operations, each from any contents `W` -/

/-- Contents moved to a buffer's own type and back are the contents. -/
theorem ofBuf_toBuf {Val : EltTy → Type} {T : BufTy} (x : TRef sig T) (v : T.Contents Val) : x.ofBuf (x.toBuf v) = v := by
  obtain ⟨r, h, h2, h3⟩ := x
  subst h
  rfl

/-- At a literal buffer the move between the value's type and the buffer's own type is the identity. -/
theorem ofBuf_v1 {Val : EltTy → Type} (p1 p2 p3) (u : main_v1.ty.Contents Val) :
    (TRef.of main_v1 p1 p2 p3 : TRef sig ⟨S1600000, .i32⟩).ofBuf u = u := rfl
theorem ofBuf_arg0 {Val : EltTy → Type} (p1 p2 p3) (u : main_arg0.ty.Contents Val) :
    (TRef.of main_arg0 p1 p2 p3 : TRef sig ⟨S100000x128, .f32⟩).ofBuf u = u := rfl
theorem toBuf_v4 {Val : EltTy → Type} (p1 p2 p3) (v : (⟨S1600000x128, .f32⟩ : BufTy).Contents Val) :
    (TRef.of main_v4 p1 p2 p3 : TRef sig ⟨S1600000x128, .f32⟩).toBuf v = v := rfl

/-- The last stretch leaves in the aggregate's buffer the scatter-add of the taken rows' buffer at the targets' buffer. -/
theorem stretch2_v7 (W : Valuation τ sig (Elt F)) :
    after (hostOps0_2 (F := F)) W (Proc.devRef .tc main_v7)
      = scatterK (W (Proc.devRef .tc main_v3)) (W (Proc.devRef .tc main_v4)) := by
  unfold scatterK
  after_results

theorem stretch2_v8 (W : Valuation τ sig (Elt F)) :
    after (hostOps0_2 (F := F)) W (Proc.devRef .tc main_v8) = truncf .bf16 (W (Proc.devRef .tc main_arg2)) bitsLt_bf16_f32 := by
  after_results

theorem stretch2_v9 (W : Valuation τ sig (Elt F)) :
    after (hostOps0_2 (F := F)) W (Proc.devRef .tc main_v9) = truncf .bf16 (W (Proc.devRef .tc main_arg4)) bitsLt_bf16_f32 := by
  after_results

set_option maxHeartbeats 2000000 in
/-- The take's stretch leaves the taken rows in its result buffer. -/
theorem stretch1_v4 (W : Valuation τ sig (Elt F)) :
    after (hostOps0_1 (F := F)) W (Proc.devRef .tc main_v4)
      = takenK (W (Proc.devRef .tc main_arg0)) (W (Proc.devRef .tc main_v1)) := by
  unfold takenK gatheredK maskK testK nidxK
  after_results
  simp only [ofBuf_toBuf, ofBuf_v1, ofBuf_arg0, toBuf_v4]
  try rfl

/-- The take's stretch writes neither the targets nor the weights. -/
theorem stretch1_v3 (W : Valuation τ sig (Elt F)) :
    after (hostOps0_1 (F := F)) W (Proc.devRef .tc main_v3) = W (Proc.devRef .tc main_v3) := by
  after_results
theorem stretch1_arg2 (W : Valuation τ sig (Elt F)) :
    after (hostOps0_1 (F := F)) W (Proc.devRef .tc main_arg2) = W (Proc.devRef .tc main_arg2) := by
  after_results
theorem stretch1_arg4 (W : Valuation τ sig (Elt F)) :
    after (hostOps0_1 (F := F)) W (Proc.devRef .tc main_arg4) = W (Proc.devRef .tc main_arg4) := by
  after_results

/-- The first stretch cuts the edge list into its two rows and leaves the arguments alone. -/
theorem stretch0_v1 (W : Valuation τ sig (Elt F)) :
    after (hostOps0 (F := F)) W (Proc.devRef .tc main_v1) = srcK (W (Proc.devRef .tc main_arg1)) := by
  after_results
  try rfl
theorem stretch0_v3 (W : Valuation τ sig (Elt F)) :
    after (hostOps0 (F := F)) W (Proc.devRef .tc main_v3) = dstK (W (Proc.devRef .tc main_arg1)) := by
  after_results
  try rfl
theorem stretch0_arg0 (W : Valuation τ sig (Elt F)) :
    after (hostOps0 (F := F)) W (Proc.devRef .tc main_arg0) = W (Proc.devRef .tc main_arg0) := by
  after_results
theorem stretch0_arg2 (W : Valuation τ sig (Elt F)) :
    after (hostOps0 (F := F)) W (Proc.devRef .tc main_arg2) = W (Proc.devRef .tc main_arg2) := by
  after_results
theorem stretch0_arg4 (W : Valuation τ sig (Elt F)) :
    after (hostOps0 (F := F)) W (Proc.devRef .tc main_arg4) = W (Proc.devRef .tc main_arg4) := by
  after_results

/-! ## The arrays the region finds -/

variable (m : (ℓ : Loc nD τ sig) → Buf (Elt F) ℓ)

/-- The region finds what the three stretches leave, one after the other. -/
theorem V_split (c : Dev nD) (b : Ref sig .tc) :
    V m c b = after (hostOps0_2 (F := F)) (after (hostOps0_1 (F := F)) (after (hostOps0 (F := F)) (fun b => m (c, b)))) (Proc.devRef .tc b) := by
  show after (List.flatten [hostOps0, hostOps0_1, hostOps0_2]) (fun b => m (c, b)) (Proc.devRef .tc b) = _
  simp only [List.flatten_cons, List.flatten_nil, List.append_nil]
  rw [StableHlo.after_append, StableHlo.after_append]

theorem V_v7 (c : Dev nD) :
    V m c main_v7 = aggFill (m ((c : Thread nD τ).loc main_arg0)) (m ((c : Thread nD τ).loc main_arg1)) := by
  rw [V_split, stretch2_v7, stretch1_v4, stretch1_v3, stretch0_v1, stretch0_v3, stretch0_arg0]
  rfl

theorem V_v8 (c : Dev nD) : V m c main_v8 = truncf .bf16 (m ((c : Thread nD τ).loc main_arg2)) bitsLt_bf16_f32 := by
  rw [V_split, stretch2_v8, stretch1_arg2, stretch0_arg2]

theorem V_v9 (c : Dev nD) : V m c main_v9 = truncf .bf16 (m ((c : Thread nD τ).loc main_arg4)) bitsLt_bf16_f32 := by
  rw [V_split, stretch2_v9, stretch1_arg4, stretch0_arg4]

end Cert.KernelIdeal.Hand

end
-- ==== Proof.Dense.lean ====
/-
  Two dense layers applied to the rows of a feature matrix, as one function on the extended reals.

  For a matrix `h` with `R` rows and 128 columns, weights `W₁` [128,128], `W₂` [128,2048] and biases `b₁`, `b₂`:
    hidden[r, k] = (∑ l, h[r, l] · W₁[l, k]) + b₁[k]
    logits[r, j] = (∑ k, hidden[r, k] · W₂[k, j]) + b₂[j].
  Every row is computed from that row of `h` alone, so the same function describes a block of rows and the whole
  matrix. Sums are over `Fin 128`; no distributivity is used anywhere, so the infinities cause no trouble.
-/
import Idealize.ShloMosaic.PureOps.Ideal
import Idealize.ShloMosaic.Lib.ValueIdx

noncomputable section

namespace Cert.Dense

open Idealize.ShloMosaic Idealize.ShloMosaic.ValueIdx

/-- The hidden layer at row `r`, unit `k`: the contraction of the row with column `k` of `W₁`, plus the bias. -/
def hidden (R : Nat) (h : (⟨2, ![R, 128]⟩ : Shape).Idx → EReal) (W1 : (⟨2, ![128, 128]⟩ : Shape).Idx → EReal)
    (b1 : (⟨1, ![128]⟩ : Shape).Idx → EReal) (r : Fin R) (k : Fin 128) : EReal :=
  (∑ l : Fin 128, h (ix2 r l) * W1 (ix2 l k)) + b1 (ix1 k)

/-- The output layer at row `r`, column `j`: the contraction of the hidden row with column `j` of `W₂`, plus the bias. -/
def logitsAt (R : Nat) (h : (⟨2, ![R, 128]⟩ : Shape).Idx → EReal) (W1 : (⟨2, ![128, 128]⟩ : Shape).Idx → EReal)
    (b1 : (⟨1, ![128]⟩ : Shape).Idx → EReal) (W2 : (⟨2, ![128, 2048]⟩ : Shape).Idx → EReal)
    (b2 : (⟨1, ![2048]⟩ : Shape).Idx → EReal) (r : Fin R) (j : Fin 2048) : EReal :=
  (∑ k : Fin 128, hidden R h W1 b1 r k * W2 (ix2 k j)) + b2 (ix1 j)

/-- The whole [R, 2048] array of logits. -/
def logits (R : Nat) (h : (⟨2, ![R, 128]⟩ : Shape).Idx → EReal) (W1 : (⟨2, ![128, 128]⟩ : Shape).Idx → EReal)
    (b1 : (⟨1, ![128]⟩ : Shape).Idx → EReal) (W2 : (⟨2, ![128, 2048]⟩ : Shape).Idx → EReal)
    (b2 : (⟨1, ![2048]⟩ : Shape).Idx → EReal) : (⟨2, ![R, 2048]⟩ : Shape).Idx → EReal := fun i =>
  logitsAt R h W1 b1 W2 b2 ⟨(i 0).val, (i 0).isLt⟩ ⟨(i 1).val, (i 1).isLt⟩

theorem logits_ix2 (R : Nat) (h : (⟨2, ![R, 128]⟩ : Shape).Idx → EReal) (W1 : (⟨2, ![128, 128]⟩ : Shape).Idx → EReal)
    (b1 : (⟨1, ![128]⟩ : Shape).Idx → EReal) (W2 : (⟨2, ![128, 2048]⟩ : Shape).Idx → EReal)
    (b2 : (⟨1, ![2048]⟩ : Shape).Idx → EReal) (r : Fin R) (j : Fin 2048) :
    logits R h W1 b1 W2 b2 (ix2 r j) = logitsAt R h W1 b1 W2 b2 r j := rfl

/-- A row of the output depends on the same row of `h` only: two matrices (of any heights) that agree on a pair of rows
    give the same logits on that pair. -/
theorem logitsAt_congr (R B : Nat) (h : (⟨2, ![R, 128]⟩ : Shape).Idx → EReal) (hb : (⟨2, ![B, 128]⟩ : Shape).Idx → EReal)
    (W1 : (⟨2, ![128, 128]⟩ : Shape).Idx → EReal) (b1 : (⟨1, ![128]⟩ : Shape).Idx → EReal)
    (W2 : (⟨2, ![128, 2048]⟩ : Shape).Idx → EReal) (b2 : (⟨1, ![2048]⟩ : Shape).Idx → EReal)
    (r : Fin B) (r' : Fin R) (hrow : ∀ l : Fin 128, hb (ix2 r l) = h (ix2 r' l)) (j j' : Fin 2048) (hj : j.val = j'.val) :
    logitsAt B hb W1 b1 W2 b2 r j = logitsAt R h W1 b1 W2 b2 r' j' := by
  obtain rfl : j = j' := Fin.ext hj
  unfold logitsAt hidden
  simp only [hrow]

end Cert.Dense

end
-- ==== Proof.Payload.lean ====
/-
  The kernel body's one stored value, read at an index.

  The body adds the two loaded row blocks (the node features and their aggregated neighbours), multiplies by the first
  weight block and adds the first bias, multiplies by the second weight block and adds the second bias. At the exact
  extended reals the narrowing to half precision before each product is the identity, and each matrix product into a zero
  accumulator is the plain sum over the contraction index. So the value stored at row `r`, column `j` of the block is the
  two-layer function of `Dense` of the summed rows.
-/
import proofs.«421285_j9749575762319_1_alg».proof.Proof.Gen.KernelIdeal.Skeleton
import proofs.«421285_j9749575762319_1_alg».proof.Proof.Dense
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Hand

open Cert.KernelIdeal Cert.KernelIdeal.Gen Idealize.ShloMosaic Idealize.ShloMosaic.ValueIdx

/-! ## The first product: [800,128] × [128,128] -/

theorem lhs1_0 (i : S800x128.Idx) (q : dot_S800x128_S128x128_S800x128_1_0_0_1_n_n.contr.Idx) :
    (dot_S800x128_S128x128_S800x128_1_0_0_1_n_n.lhsIdx i q 0).val = (i 0).val := by
  unfold DotDims.lhsIdx
  rw [dif_neg (show ¬(0 : Fin S800x128.rank) ∈ dot_S800x128_S128x128_S800x128_1_0_0_1_n_n.lhsBatch by decide), dif_pos (show (0 : Fin S800x128.rank) ∈ dot_S800x128_S128x128_S800x128_1_0_0_1_n_n.lhsNonContracting by decide)]
  rfl
theorem lhs1_1 (i : S800x128.Idx) (q : dot_S800x128_S128x128_S800x128_1_0_0_1_n_n.contr.Idx) :
    (dot_S800x128_S128x128_S800x128_1_0_0_1_n_n.lhsIdx i q 1).val = (q ⟨0, by decide⟩).val :=
  dot_S800x128_S128x128_S800x128_1_0_0_1_n_n.lhsIdx_val_of_single rfl i q
theorem rhs1_0 (i : S800x128.Idx) (q : dot_S800x128_S128x128_S800x128_1_0_0_1_n_n.contr.Idx) :
    (dot_S800x128_S128x128_S800x128_1_0_0_1_n_n.rhsIdx i q 0).val = (q ⟨0, by decide⟩).val :=
  dot_S800x128_S128x128_S800x128_1_0_0_1_n_n.rhsIdx_val_of_single rfl i q
theorem rhs1_1 (i : S800x128.Idx) (q : dot_S800x128_S128x128_S800x128_1_0_0_1_n_n.contr.Idx) :
    (dot_S800x128_S128x128_S800x128_1_0_0_1_n_n.rhsIdx i q 1).val = (i 1).val := by
  unfold DotDims.rhsIdx
  rw [dif_neg (show ¬(1 : Fin S128x128.rank) ∈ dot_S800x128_S128x128_S800x128_1_0_0_1_n_n.rhsBatch by decide), dif_pos (show (1 : Fin S128x128.rank) ∈ dot_S800x128_S128x128_S800x128_1_0_0_1_n_n.rhsNonContracting by decide)]
  rfl

/-- The first product into a zero accumulator, at row `r`, unit `k`: the sum over the 128 input features. -/
theorem mm1_apply {φ₁ φ₂ : FTy} (a : FVec Ideal S800x128 φ₁) (w : FVec Ideal S128x128 φ₂) (r : Fin 800) (k : Fin 128) :
    matmul dot_S800x128_S128x128_S800x128_1_0_0_1_n_n none a w (constant S800x128 .f32 0x00000000#32) (ix2 r k)
      = ∑ l : Fin 128, a (ix2 r l) * w (ix2 l k) := by
  simp only [matmul]
  rw [Ideal.matmul_constant_zero_apply, ← Equiv.sum_comp (ValueIdx.contrEquiv1 dot_S800x128_S128x128_S800x128_1_0_0_1_n_n 128 rfl rfl).symm]
  refine Finset.sum_congr rfl fun l _ => ?_
  have hk := ValueIdx.contrEquiv1_symm_val dot_S800x128_S128x128_S800x128_1_0_0_1_n_n 128 rfl rfl l
  have el : dot_S800x128_S128x128_S800x128_1_0_0_1_n_n.lhsIdx (ix2 r k) ((ValueIdx.contrEquiv1 dot_S800x128_S128x128_S800x128_1_0_0_1_n_n 128 rfl rfl).symm l) = ix2 r l := funext fun a => Fin.ext (by
    match a with
    | ⟨0, _⟩ => exact lhs1_0 _ _
    | ⟨1, _⟩ => exact (lhs1_1 _ _).trans hk)
  have er : dot_S800x128_S128x128_S800x128_1_0_0_1_n_n.rhsIdx (ix2 r k) ((ValueIdx.contrEquiv1 dot_S800x128_S128x128_S800x128_1_0_0_1_n_n 128 rfl rfl).symm l) = ix2 l k := funext fun a => Fin.ext (by
    match a with
    | ⟨0, _⟩ => exact (rhs1_0 _ _).trans hk
    | ⟨1, _⟩ => exact rhs1_1 _ _)
  rw [el, er]

/-! ## The second product: [800,128] × [128,2048] -/

theorem lhs2_0 (i : S800x2048.Idx) (q : dot_S800x128_S128x2048_S800x2048_1_0_0_1_n_n.contr.Idx) :
    (dot_S800x128_S128x2048_S800x2048_1_0_0_1_n_n.lhsIdx i q 0).val = (i 0).val := by
  unfold DotDims.lhsIdx
  rw [dif_neg (show ¬(0 : Fin S800x128.rank) ∈ dot_S800x128_S128x2048_S800x2048_1_0_0_1_n_n.lhsBatch by decide), dif_pos (show (0 : Fin S800x128.rank) ∈ dot_S800x128_S128x2048_S800x2048_1_0_0_1_n_n.lhsNonContracting by decide)]
  rfl
theorem lhs2_1 (i : S800x2048.Idx) (q : dot_S800x128_S128x2048_S800x2048_1_0_0_1_n_n.contr.Idx) :
    (dot_S800x128_S128x2048_S800x2048_1_0_0_1_n_n.lhsIdx i q 1).val = (q ⟨0, by decide⟩).val :=
  dot_S800x128_S128x2048_S800x2048_1_0_0_1_n_n.lhsIdx_val_of_single rfl i q
theorem rhs2_0 (i : S800x2048.Idx) (q : dot_S800x128_S128x2048_S800x2048_1_0_0_1_n_n.contr.Idx) :
    (dot_S800x128_S128x2048_S800x2048_1_0_0_1_n_n.rhsIdx i q 0).val = (q ⟨0, by decide⟩).val :=
  dot_S800x128_S128x2048_S800x2048_1_0_0_1_n_n.rhsIdx_val_of_single rfl i q
theorem rhs2_1 (i : S800x2048.Idx) (q : dot_S800x128_S128x2048_S800x2048_1_0_0_1_n_n.contr.Idx) :
    (dot_S800x128_S128x2048_S800x2048_1_0_0_1_n_n.rhsIdx i q 1).val = (i 1).val := by
  unfold DotDims.rhsIdx
  rw [dif_neg (show ¬(1 : Fin S128x2048.rank) ∈ dot_S800x128_S128x2048_S800x2048_1_0_0_1_n_n.rhsBatch by decide), dif_pos (show (1 : Fin S128x2048.rank) ∈ dot_S800x128_S128x2048_S800x2048_1_0_0_1_n_n.rhsNonContracting by decide)]
  rfl

/-- The second product into a zero accumulator, at row `r`, column `j`: the sum over the 128 hidden units. -/
theorem mm2_apply {φ₁ φ₂ : FTy} (a : FVec Ideal S800x128 φ₁) (w : FVec Ideal S128x2048 φ₂) (r : Fin 800) (j : Fin 2048) :
    matmul dot_S800x128_S128x2048_S800x2048_1_0_0_1_n_n none a w (constant S800x2048 .f32 0x00000000#32) (ix2 r j)
      = ∑ k : Fin 128, a (ix2 r k) * w (ix2 k j) := by
  simp only [matmul]
  rw [Ideal.matmul_constant_zero_apply, ← Equiv.sum_comp (ValueIdx.contrEquiv1 dot_S800x128_S128x2048_S800x2048_1_0_0_1_n_n 128 rfl rfl).symm]
  refine Finset.sum_congr rfl fun k _ => ?_
  have hk := ValueIdx.contrEquiv1_symm_val dot_S800x128_S128x2048_S800x2048_1_0_0_1_n_n 128 rfl rfl k
  have el : dot_S800x128_S128x2048_S800x2048_1_0_0_1_n_n.lhsIdx (ix2 r j) ((ValueIdx.contrEquiv1 dot_S800x128_S128x2048_S800x2048_1_0_0_1_n_n 128 rfl rfl).symm k) = ix2 r k := funext fun a => Fin.ext (by
    match a with
    | ⟨0, _⟩ => exact lhs2_0 _ _
    | ⟨1, _⟩ => exact (lhs2_1 _ _).trans hk)
  have er : dot_S800x128_S128x2048_S800x2048_1_0_0_1_n_n.rhsIdx (ix2 r j) ((ValueIdx.contrEquiv1 dot_S800x128_S128x2048_S800x2048_1_0_0_1_n_n 128 rfl rfl).symm k) = ix2 k j := funext fun a => Fin.ext (by
    match a with
    | ⟨0, _⟩ => exact (rhs2_0 _ _).trans hk
    | ⟨1, _⟩ => exact rhs2_1 _ _)
  rw [el, er]

/-! ## The biases: a vector laid out as one row and repeated down the block -/

theorem bias1_apply (b : FVec Ideal S128 .f32) (r : Fin 800) (k : Fin 128) :
    broadcastTo S800x128 (shapeCast S1x128 b shapeCasts_S128_S1x128) broadcasts_S1x128_S800x128 (ix2 r k) = b (ix1 k) :=
  (broadcastTo_1b_ab_apply _ broadcasts_S1x128_S800x128 r k).trans (shapeCast_a_1a_apply b shapeCasts_S128_S1x128 0 k)

theorem bias2_apply (b : FVec Ideal S2048 .f32) (r : Fin 800) (j : Fin 2048) :
    broadcastTo S800x2048 (shapeCast S1x2048 b shapeCasts_S2048_S1x2048) broadcasts_S1x2048_S800x2048 (ix2 r j) = b (ix1 j) :=
  (broadcastTo_1b_ab_apply _ broadcasts_S1x2048_S800x2048 r j).trans (shapeCast_a_1a_apply b shapeCasts_S2048_S1x2048 0 j)

/-! ## The stored value -/

/-- The body's stored value at row `r`, column `j` of the block is the two-layer function of the summed rows. -/
theorem pay_apply (x0 x1 : Vec Ideal S800x128 .f32) (x2 : Vec Ideal S128x128 .bf16) (x3 : Vec Ideal S128 .f32)
    (x4 : Vec Ideal S128x2048 .bf16) (x5 : Vec Ideal S2048 .f32) (r : Fin 800) (j : Fin 2048) :
    k0_pay1 (F := Ideal) x0 x1 x2 x3 x4 x5 (ix2 r j) = Cert.Dense.logitsAt 800 (addf (F := Ideal) (φ := .f32) x0 x1) x2 x3 x4 x5 r j := by
  unfold k0_pay1 Cert.Dense.logitsAt Cert.Dense.hidden
  simp only [shapeCast_self]
  rw [addf_apply, mm2_apply, bias2_apply]
  refine congrArg (· + x5 (ix1 j)) (Finset.sum_congr rfl fun k _ => ?_)
  rw [truncf_apply, addf_apply, mm1_apply, bias1_apply]
  refine congrArg (fun s => (s + x3 (ix1 k)) * x4 (ix2 k j)) (Finset.sum_congr rfl fun l _ => ?_)
  rw [truncf_apply]

/-- The stored value of a block whose two row blocks are rows `o …` of the matrices `X` and `A`, and whose weight and
    bias blocks are the whole arrays, is the two-layer function of `X + A` at the matching row of the whole output. -/
theorem block_eq (X A : Vec Ideal S100000x128 .f32) (W1 : Vec Ideal S128x128 .bf16) (B1 : Vec Ideal S128 .f32)
    (W2 : Vec Ideal S128x2048 .bf16) (B2 : Vec Ideal S2048 .f32)
    (x0 x1 : Vec Ideal S800x128 .f32) (x2 : Vec Ideal S128x128 .bf16) (x3 : Vec Ideal S128 .f32)
    (x4 : Vec Ideal S128x2048 .bf16) (x5 : Vec Ideal S2048 .f32)
    (o : Nat) (y : S800x2048.Idx) (i : S100000x2048.Idx)
    (hi0 : (i 0).val = o + (y 0).val) (hi1 : (i 1).val = (y 1).val)
    (h0 : ∀ (p : S800x128.Idx) (q : S100000x128.Idx), (q 0).val = o + (p 0).val → (q 1).val = (p 1).val → x0 p = X q)
    (h1 : ∀ (p : S800x128.Idx) (q : S100000x128.Idx), (q 0).val = o + (p 0).val → (q 1).val = (p 1).val → x1 p = A q)
    (h2 : x2 = W1) (h3 : x3 = B1) (h4 : x4 = W2) (h5 : x5 = B2) :
    k0_pay1 (F := Ideal) x0 x1 x2 x3 x4 x5 y
      = Cert.Dense.logits 100000 (addf (F := Ideal) (φ := .f32) X A) W1 B1 W2 B2 i := by
  subst h2 h3 h4 h5
  obtain ⟨r, j, rfl⟩ : ∃ (r : Fin 800) (j : Fin 2048), y = ix2 r j := ⟨y 0, y 1, eq_ix2 y⟩
  rw [pay_apply]
  have hr : (i 0).val = o + r.val := hi0
  have hj : (i 1).val = j.val := hi1
  refine Cert.Dense.logitsAt_congr 100000 800 _ _ _ _ _ _ r ⟨(i 0).val, (i 0).isLt⟩ (fun l => ?_) j ⟨(i 1).val, (i 1).isLt⟩ hj.symm
  show x0 (ix2 r l) + x1 (ix2 r l) = X _ + A _
  rw [h0 (ix2 r l) (ix2 ⟨(i 0).val, (i 0).isLt⟩ l) hr rfl, h1 (ix2 r l) (ix2 ⟨(i 0).val, (i 0).isLt⟩ l) hr rfl]

end Cert.KernelIdeal.Hand

end
-- ==== Proof.KernelValue.lean ====
/-
  The kernel's result array is the two-layer function of the arrays the region finds.

  The grid has 125 points; point `t` reads rows `800 t … 800 t + 799` of the feature matrix and of the aggregate, the
  whole weight and bias arrays, and writes rows `800 t … 800 t + 799` of the [100000, 2048] result. Each output row
  depends on the same row of the inputs only, so what point `t` writes is block `t` of one whole-array function; the 125
  blocks tile the result (row `i` lies in block `i / 800`).
-/
import proofs.«421285_j9749575762319_1_alg».proof.Proof.Gen.KernelIdeal.Value
import proofs.«421285_j9749575762319_1_alg».proof.Proof.Payload
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Hand

open Cert.KernelIdeal Cert.KernelIdeal.Gen Cert.KernelIdeal.Value Idealize.ShloMosaic.ValueIdx

variable (m : (ℓ : Loc nD τ sig) → Buf (Elt Ideal) ℓ) (ρ : Dev nD → PrngReg)

theorem hz2 : (![0, 0] : Fin 2 → Nat) = fun _ => 0 := funext fun a => by fin_cases a <;> rfl
theorem hz1 : (![0] : Fin 1 → Nat) = fun _ => 0 := funext fun a => by fin_cases a <;> rfl

/-- The printed index maps over the grid: the two row windows and the output move one block per point, the weights and
    biases stay at block 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = 0
    ∧ win0_6.index t (0 : Fin 2) = t.val ∧ win0_6.index t (1 : Fin 2) = 0 :=
  (by decide +kernel : ∀ t : Fin grid0.N, _)

/-! ## The arrays the region finds, at their literal types -/

abbrev xA (c : Dev nD) : Vec Ideal S100000x128 .f32 := V m c main_arg0
abbrev aggA (c : Dev nD) : Vec Ideal S100000x128 .f32 := V m c main_v7
abbrev w1A (c : Dev nD) : Vec Ideal S128x128 .bf16 := V m c main_v8
abbrev b1A (c : Dev nD) : Vec Ideal S128 .f32 := V m c main_arg3
abbrev w2A (c : Dev nD) : Vec Ideal S128x2048 .bf16 := V m c main_v9
abbrev b2A (c : Dev nD) : Vec Ideal S2048 .f32 := V m c main_arg5

abbrev blk0 (c : Dev nD) (t : Fin cfg0.N) : Vec Ideal S800x128 .f32 := iblk m c 0 t
abbrev blk1 (c : Dev nD) (t : Fin cfg0.N) : Vec Ideal S800x128 .f32 := iblk m c 1 t
abbrev blk2 (c : Dev nD) (t : Fin cfg0.N) : Vec Ideal S128x128 .bf16 := iblk m c 2 t
abbrev blk3 (c : Dev nD) (t : Fin cfg0.N) : Vec Ideal S128 .f32 := iblk m c 3 t
abbrev blk4 (c : Dev nD) (t : Fin cfg0.N) : Vec Ideal S128x2048 .bf16 := iblk m c 4 t
abbrev blk5 (c : Dev nD) (t : Fin cfg0.N) : Vec Ideal S2048 .f32 := iblk m c 5 t

/-- The whole result: the two-layer function of the feature matrix plus the aggregate. -/
abbrev result (c : Dev nD) : Vec Ideal S100000x2048 .f32 :=
  Cert.Dense.logits 100000 (addf (F := Ideal) (φ := .f32) (xA m c) (aggA m c)) (w1A m c) (b1A m c) (w2A m c) (b2A m c)

/-! ## The input blocks as parts of the arrays -/

theorem blk0_apply (c : Dev nD) (t : Fin cfg0.N) (p : S800x128.Idx) (q : S100000x128.Idx)
    (hq0 : (q 0).val = 800 * t.val + (p 0).val) (hq1 : (q 1).val = (p 1).val) : blk0 m c t p = xA m c q := by
  obtain ⟨e0, e1, -⟩ := idx_facts t
  show iblk m c 0 t p = _
  unfold iblk
  rw [View.read_apply]
  show V m c main_arg0 _ = V m c main_arg0 q
  refine congrArg (V m c main_arg0) (funext fun a => Fin.ext ?_)
  match a with
  | ⟨0, _⟩ => show win0_0.index t (0 : Fin 2) * 800 + 1 * (p 0).val = (q 0).val; rw [e0, hq0]; omega
  | ⟨1, _⟩ => show win0_0.index t (1 : Fin 2) * 128 + 1 * (p 1).val = (q 1).val; rw [e1, hq1]; omega

/-- Reading a block of the aggregate's array: the view's change of element type is the identity. -/
theorem cast1 (c : Dev nD) (t : Fin cfg0.N) (A : Buf (Elt Ideal) ((c : Thread nD τ).loc (Pipeline.arrRef spec0 1))) (p : S800x128.Idx) :
    cast (congrArg (Elt Ideal) ((cfg0.win 1).blk t).view.elt_eq) (A (((cfg0.win 1).blk t).view.emb p)) = A (((cfg0.win 1).blk t).view.emb p) := rfl

theorem blk1_apply (c : Dev nD) (t : Fin cfg0.N) (p : S800x128.Idx) (q : S100000x128.Idx)
    (hq0 : (q 0).val = 800 * t.val + (p 0).val) (hq1 : (q 1).val = (p 1).val) : blk1 m c t p = aggA m c q := by
  obtain ⟨-, -, e0, e1, -⟩ := idx_facts t
  show ((cfg0.win 1).blk t).view.read (Elt Ideal) (V m c (Pipeline.arrRef spec0 1)) p = V m c (Pipeline.arrRef spec0 1) q
  generalize V m c (Pipeline.arrRef spec0 1) = A
  rw [View.read_apply]
  refine (cast1 c t A p).trans ?_
  refine congrArg A (funext fun a => Fin.ext ?_)
  match a with
  | ⟨0, _⟩ => show win0_1.index t (0 : Fin 2) * 800 + 1 * (p 0).val = (q 0).val; rw [e0, hq0]; omega
  | ⟨1, _⟩ => show win0_1.index t (1 : Fin 2) * 128 + 1 * (p 1).val = (q 1).val; rw [e1, hq1]; omega

theorem blk2_eq (c : Dev nD) (t : Fin cfg0.N) : blk2 m c t = w1A m c := by
  obtain ⟨-, -, -, -, e0, e1, -⟩ := idx_facts t
  funext p
  show iblk m c 2 t p = _
  unfold iblk
  rw [View.read_apply]
  show V m c main_v8 _ = V m c main_v8 p
  refine congrArg (V m c main_v8) (funext fun a => Fin.ext ?_)
  match a with
  | ⟨0, _⟩ => show win0_2.index t (0 : Fin 2) * 128 + 1 * (p 0).val = (p 0).val; rw [e0]; omega
  | ⟨1, _⟩ => show win0_2.index t (1 : Fin 2) * 128 + 1 * (p 1).val = (p 1).val; rw [e1]; omega

theorem blk3_eq (c : Dev nD) (t : Fin cfg0.N) : blk3 m c t = b1A m c := by
  obtain ⟨-, -, -, -, -, -, e0, -⟩ := idx_facts t
  funext p
  show iblk m c 3 t p = _
  unfold iblk
  rw [View.read_apply]
  show V m c main_arg3 _ = V m c main_arg3 p
  refine congrArg (V m c main_arg3) (funext fun a => Fin.ext ?_)
  match a with
  | ⟨0, _⟩ => show win0_3.index t (0 : Fin 1) * 128 + 1 * (p 0).val = (p 0).val; rw [e0]; omega

theorem blk4_eq (c : Dev nD) (t : Fin cfg0.N) : blk4 m c t = w2A m c := by
  obtain ⟨-, -, -, -, -, -, -, e0, e1, -⟩ := idx_facts t
  funext p
  show iblk m c 4 t p = _
  unfold iblk
  rw [View.read_apply]
  show V m c main_v9 _ = V m c main_v9 p
  refine congrArg (V m c main_v9) (funext fun a => Fin.ext ?_)
  match a with
  | ⟨0, _⟩ => show win0_4.index t (0 : Fin 2) * 128 + 1 * (p 0).val = (p 0).val; rw [e0]; omega
  | ⟨1, _⟩ => show win0_4.index t (1 : Fin 2) * 2048 + 1 * (p 1).val = (p 1).val; rw [e1]; omega

theorem blk5_eq (c : Dev nD) (t : Fin cfg0.N) : blk5 m c t = b2A m c := by
  obtain ⟨-, -, -, -, -, -, -, -, -, e0, -⟩ := idx_facts t
  funext p
  show iblk m c 5 t p = _
  unfold iblk
  rw [View.read_apply]
  show V m c main_arg5 _ = V m c main_arg5 p
  refine congrArg (V m c main_arg5) (funext fun a => Fin.ext ?_)
  match a with
  | ⟨0, _⟩ => show win0_5.index t (0 : Fin 1) * 2048 + 1 * (p 0).val = (p 0).val; rw [e0]; omega

/-! ## What a point writes back, the cover, and the run -/

/-- What point `t` writes back is block `t` of `result`. -/
theorem flushed_eq (c : Dev nD) (t : Fin cfg0.N) :
    (dats m 0 c).flushed 6 t = ((cfg0.win 6).blk t).view.read (Elt Ideal) (result m c) := by
  rw [Value.flushed6]
  unfold out0_6
  rw [View.canon_unit_zero hz2]
  simp only [View.ld_unit_zero (S := S800x128) hz2, View.ld_unit_zero (S := S128x128) hz2, View.ld_unit_zero (S := S128) hz1,
    View.ld_unit_zero (S := S128x2048) hz2, View.ld_unit_zero (S := S2048) hz1]
  obtain ⟨-, -, -, -, -, -, -, -, -, -, e0, e1⟩ := idx_facts t
  funext y
  rw [View.read_apply]
  refine block_eq (xA m c) (aggA m c) (w1A m c) (b1A m c) (w2A m c) (b2A m c) (blk0 m c t) (blk1 m c t) (blk2 m c t) (blk3 m c t)
    (blk4 m c t) (blk5 m c t) (800 * t.val) y (((cfg0.win 6).blk t).view.emb y) ?_ ?_ (blk0_apply m c t) (blk1_apply m c t)
    (blk2_eq m c t) (blk3_eq m c t) (blk4_eq m c t) (blk5_eq m c t)
  · show win0_6.index t (0 : Fin 2) * 800 + 1 * (y 0).val = 800 * t.val + (y 0).val
    rw [e0]; omega
  · show win0_6.index t (1 : Fin 2) * 2048 + 1 * (y 1).val = (y 1).val
    rw [e1]; omega

/-- An index of the result is in point `t`'s block iff each coordinate is in the block's range on its axis. -/
theorem mem_blk (t : Fin cfg0.N) (i : S100000x2048.Idx) :
    i ∈ ((cfg0.win 6).blk t).view.set ↔ ∀ a : Fin 2, win0_6.index t a * S800x2048.size a ≤ (i a).val ∧ (i a).val < win0_6.index t a * S800x2048.size a + S800x2048.size a := by
  show i ∈ ((View.whole main_v10).slice (win0_6.rect t)).set ↔ _
  rw [View.set_slice_whole, Rect.mem_set_unit]
  exact Iff.rfl

/-- Row `i` of the result lies in the block of point `i / 800`. -/
theorem cover (i : S100000x2048.Idx) :
    ∃ t : Fin cfg0.N, (cfg0.win 6).flush t = true ∧ i ∈ ((cfg0.win 6).blk t).view.set := by
  have hi0 : (i 0).val < 100000 := (i 0).isLt
  have hi1 : (i 1).val < 2048 := (i 1).isLt
  have hN : cfg0.N = 125 := N_0
  let t : Fin cfg0.N := ⟨(i 0).val / 800, by rw [hN]; omega⟩
  obtain ⟨-, -, -, -, -, -, -, -, -, -, e0, e1⟩ := idx_facts t
  have ht : t.val = (i 0).val / 800 := rfl
  refine ⟨t, flush0_6 t, ?_⟩
  rw [mem_blk]
  intro a
  match a with
  | ⟨0, _⟩ => show win0_6.index t (0 : Fin 2) * 800 ≤ (i 0).val ∧ (i 0).val < win0_6.index t (0 : Fin 2) * 800 + 800; rw [e0, ht]; omega
  | ⟨1, _⟩ => show win0_6.index t (1 : Fin 2) * 2048 ≤ (i 1).val ∧ (i 1).val < win0_6.index t (1 : Fin 2) * 2048 + 2048; rw [e1]; omega

/-- So the result array ends holding `result`. -/
theorem final (c : Dev nD) : (dats m 0 c).arrAt 6 cfg0.N = result m c :=
  (dats m 0 c).arrAt_eq_of_cover 6 (result m c) (fun t _ => flushed_eq m c t) cover

/-- The run, read: the result array at `result`, the arguments unchanged. -/
theorem run : θ_run defs (onTc (τ := τ) (main (F := Ideal))) ⟨m, fun _ => 0, ρ⟩ fun r => ∀ c : Dev nD,
      r.2.mem ((c : Thread nD τ).loc main_v10) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (Value.run_blocks m ρ)

end Cert.KernelIdeal.Hand

end
-- ==== Proof.RefSide.lean ====
/-
  The reference's result is the two-layer function of the summed rows.

  The reference adds to the feature matrix the aggregated neighbour features, multiplies by the first weight matrix, adds
  the first bias to every row, multiplies by the second weight matrix and adds the second bias to every row. Read index
  by index at the exact extended reals, each product is the sum over the contraction index, and each bias, broadcast
  through a one-row matrix, is its entry at the column.
-/
import proofs.«421285_j9749575762319_1_alg».proof.Proof.Gen.ReferenceIdeal.Read
import proofs.«421285_j9749575762319_1_alg».proof.Proof.Dense

noncomputable section

namespace Cert.ReferenceIdeal.Hand

open Cert.ReferenceIdeal Cert.ReferenceIdeal.Gen Cert.ReferenceIdeal.Read Idealize.ShloMosaic Idealize.ShloMosaic.ValueIdx

/-- The first product's left factor is at the output's row, the contraction's column. -/
theorem lidx15 (r : Fin 100000) (k l : Fin 128) : lidx_main_v15 (ix2 r k) l = ix2 r l :=
  funext fun a => Fin.ext (by match a with | ⟨0, _⟩ => rfl | ⟨1, _⟩ => rfl)
theorem ridx15 (r : Fin 100000) (k l : Fin 128) : ridx_main_v15 (ix2 r k) l = ix2 l k :=
  funext fun a => Fin.ext (by match a with | ⟨0, _⟩ => rfl | ⟨1, _⟩ => rfl)
theorem lidx19 (r : Fin 100000) (j : Fin 2048) (k : Fin 128) : lidx_main_v19 (ix2 r j) k = ix2 r k :=
  funext fun a => Fin.ext (by match a with | ⟨0, _⟩ => rfl | ⟨1, _⟩ => rfl)
theorem ridx19 (r : Fin 100000) (j : Fin 2048) (k : Fin 128) : ridx_main_v19 (ix2 r j) k = ix2 k j :=
  funext fun a => Fin.ext (by match a with | ⟨0, _⟩ => rfl | ⟨1, _⟩ => rfl)
theorem bidx1 (r : Fin 100000) (k : Fin 128) : idx_main_v16 (idx_main_v17 (ix2 r k)) = ix1 k :=
  funext fun a => Fin.ext (by match a with | ⟨0, _⟩ => rfl)
theorem bidx2 (r : Fin 100000) (j : Fin 2048) : idx_main_v20 (idx_main_v21 (ix2 r j)) = ix1 j :=
  funext fun a => Fin.ext (by match a with | ⟨0, _⟩ => rfl)

/-- The reference's result, index by index, is the two-layer function of the feature matrix plus its aggregate. -/
theorem result_eq (x0 : FVec Ideal S100000x128 .f32) (x1 : IVec S2x1600000 32) (x2 : FVec Ideal S128x128 .f32)
    (x3 : FVec Ideal S128 .f32) (x4 : FVec Ideal S128x2048 .f32) (x5 : FVec Ideal S2048 .f32) :
    val_main_v22 (F := Ideal) x0 x1 x2 x3 x4 x5
      = Cert.Dense.logits 100000 (addf (F := Ideal) (φ := .f32) x0 (val_main_v13 (F := Ideal) x0 x1)) x2 x3 x4 x5 := by
  funext i
  obtain ⟨r, j, rfl⟩ : ∃ (r : Fin 100000) (j : Fin 2048), i = ix2 r j := ⟨i 0, i 1, eq_ix2 i⟩
  rw [Cert.Dense.logits_ix2]
  unfold Cert.Dense.logitsAt Cert.Dense.hidden
  rw [val_main_v22_apply, val_main_v19_apply, val_main_v21_apply, val_main_v20_apply, bidx2]
  refine congrArg (· + x5 (ix1 j)) (Finset.sum_congr rfl fun k _ => ?_)
  rw [lidx19, ridx19, val_main_v18_apply, val_main_v15_apply, val_main_v17_apply, val_main_v16_apply, bidx1]
  refine congrArg (fun s => (s + x3 (ix1 k)) * x4 (ix2 k j)) (Finset.sum_congr rfl fun l _ => ?_)
  rw [lidx15, ridx15]
  rfl

end Cert.ReferenceIdeal.Hand

end
-- ==== Proof.PreDecode.lean ====
/-
  What the precondition says about the edge sources.

  The precondition's last conjunct is `all((src ≥ 0) ∧ (src < 100000))` over the first row `src` of the edge list. Read
  back: each source word, as a signed integer, is a valid row number of the feature matrix.
-/
import proofs.«421285_j9749575762319_1_alg».proof.Pre_finite_inputs
import proofs.«421285_j9749575762319_1_alg».proof.Proof.Gen.Pre_finite_inputs
import Idealize.ShloMosaic.Lib.ReduceAll
import Idealize.ShloMosaic.Lib.Affine
import Idealize.ShloMosaic.Lib.ValueIdx

noncomputable section

namespace Cert.Pre_finite_inputs.Hand

open Cert.Pre_finite_inputs Cert.Pre_finite_inputs.Facts Idealize.ShloMosaic Idealize.ShloMosaic.ValueIdx

instance : Subsingleton S_.Idx := ⟨fun a b => funext fun d => d.elim0⟩

/-- The first row of the edge list, as the precondition reads it: a slice of the [2, E] array laid out as a vector. -/
abbrev srcRow (a1 : IVec S2x1600000 32) : IVec S1600000 32 :=
  shapeCast S1600000 (extractStridedSlice S1x1600000 ![0, 0] a1 slices_S2x1600000_S1x1600000_0_0) shapeCasts_S1x1600000_S1600000

/-- Under the precondition every source word is, signed, at least 0 and below 100000. -/
theorem src_in_range {F : FTy → Type} [FloatOps F] (a0 : FVec F S100000x128 .f32) (a1 : IVec S2x1600000 32)
    (a2 : FVec F S128x128 .f32) (a3 : FVec F S128 .f32) (a4 : FVec F S128x2048 .f32) (a5 : FVec F S2048 .f32)
    (h : fn (F := F) a0 a1 a2 a3 a4 a5 = fun _ => 1#1) (e : S1600000.Idx) :
    (0#32 : BitVec 32).toInt ≤ (srcRow a1 e).toInt ∧ (srcRow a1 e).toInt < (100000#32 : BitVec 32).toInt := by
  have h0 := congrFun h ix0
  dsimp only [fn, fn_part1] at h0
  obtain ⟨-, h33⟩ := IntOp.andi_eq_one.1 h0
  have h32 := Host.reduce_andi_all _ _ reducesTo_S1600000_S_d0 h_S_ ix0 h33 e
  obtain ⟨h27, h31⟩ := IntOp.andi_eq_one.1 h32
  exact ⟨IntOp.cmpi_sge.1 h27, IntOp.cmpi_slt.1 h31⟩

end Cert.Pre_finite_inputs.Hand

end
-- ==== Proof.Bridge.lean ====
/-
  The two programs compute one function of the arguments.

  Under the precondition every edge source is a valid row number, so the kernel's program hands its kernel the same
  aggregate the reference computes (a scatter-add at the targets of the gathered source rows), the feature matrix and the
  biases as launched, and the weights unchanged at the exact extended reals. The kernel's result array and the reference's
  result are then the same two-layer function of the same arrays.
-/
import proofs.«421285_j9749575762319_1_alg».proof.Defs
import proofs.«421285_j9749575762319_1_alg».proof.Proof.HostSide
import proofs.«421285_j9749575762319_1_alg».proof.Proof.KernelValue
import proofs.«421285_j9749575762319_1_alg».proof.Proof.RefSide
import proofs.«421285_j9749575762319_1_alg».proof.Proof.PreDecode
import proofs.«421285_j9749575762319_1_alg».proof.Proof.Gen.Pre_finite_inputs

noncomputable section

open Idealize.ShloMosaic Idealize.ShloMosaic.TcCoe Idealize.SL.Sem

namespace Cert.Proof.Bridge

/-- The aggregate of the gathered rows is the reference's aggregate: the same operations on the same arrays. -/
theorem aggPlain_eq_ref {F : FTy → Type} [FloatOps F] (a0 : FVec F Cert.KernelIdeal.S100000x128 .f32)
    (a1 : IVec Cert.KernelIdeal.S2x1600000 32) :
    Cert.KernelIdeal.Hand.aggPlain a0 a1 = Cert.ReferenceIdeal.Read.val_main_v13 (F := F) a0 a1 := rfl

open Cert.KernelIdeal Cert.KernelIdeal.Gen in
/-- The kernel's result, as a function of the arguments as launched. -/
theorem kernel_result (m : (ℓ : Loc Cert.KernelIdeal.nD Cert.KernelIdeal.τ Cert.KernelIdeal.sig) → Buf (Elt Ideal) ℓ)
    (c : Dev Cert.KernelIdeal.nD)
    (hsrc : ∀ e : S1600000.Idx, (0#32 : BitVec 32).toInt ≤ (Cert.KernelIdeal.Hand.srcK (m ((c : Thread nD τ).loc main_arg1)) e).toInt
      ∧ (Cert.KernelIdeal.Hand.srcK (m ((c : Thread nD τ).loc main_arg1)) e).toInt < (100000#32 : BitVec 32).toInt) :
    Cert.KernelIdeal.Hand.result m c
      = Cert.Dense.logits 100000
          (addf (F := Ideal) (φ := .f32) (m ((c : Thread nD τ).loc main_arg0))
            (Cert.ReferenceIdeal.Read.val_main_v13 (F := Ideal) (m ((c : Thread nD τ).loc main_arg0)) (m ((c : Thread nD τ).loc main_arg1))))
          (m ((c : Thread nD τ).loc main_arg2)) (m ((c : Thread nD τ).loc main_arg3))
          (m ((c : Thread nD τ).loc main_arg4)) (m ((c : Thread nD τ).loc main_arg5)) := by
  show Cert.Dense.logits 100000 (addf (F := Ideal) (φ := .f32) (V m c main_arg0) (V m c main_v7)) (V m c main_v8) (V m c main_arg3)
      (V m c main_v9) (V m c main_arg5) = _
  rw [V_main_arg0, Cert.KernelIdeal.Hand.V_v7, Cert.KernelIdeal.Hand.aggFill_eq _ _ hsrc, aggPlain_eq_ref,
    Cert.KernelIdeal.Hand.V_v8, Cert.KernelIdeal.Hand.V_v9, V_main_arg3, V_main_arg5]
  rfl

end Cert.Proof.Bridge

end
-- ==== Proof.lean ====
/-
  A graph layer followed by two dense layers: the kernel against its reference, at the exact extended reals.

  Both programs first aggregate, for every node, the feature rows of its in-neighbours (a gather of the source rows and a
  scatter-add at the targets), add the node's own features, and then apply `h ↦ (h·W₁ + b₁)·W₂ + b₂` row by row. The
  kernel's program does the aggregation on the host and the two products in a pipelined kernel over blocks of 800 rows,
  with the operands narrowed to half precision (the identity at the exact reals); the reference does everything on the
  host in single precision.

  The one place the two differ is an out-of-range edge source: the kernel's take replaces such a row by a fill value, the
  reference's gather clamps the index. The precondition therefore asks every source to be a valid row number
  (`0 ≤ src < 100000`); under it the fill never applies and the aggregates are the same term. Then

    * the kernel's result array is `Dense.logits` of the arrays its region finds (`KernelValue`: what each grid point
      writes back is a block of that function, `Payload`; the 125 blocks tile the array),
    * the reference's result is `Dense.logits` of the same arrays (`RefSide`), and
    * the arrays the region finds are the arguments, the shared aggregate and the unchanged weights (`HostSide`, `Bridge`).

  No algebraic law beyond reindexing the two contractions is used, so finiteness of the float inputs is not needed.
-/
import proofs.«421285_j9749575762319_1_alg».proof.Defs
import proofs.«421285_j9749575762319_1_alg».proof.Proof.Gen.Kernel
import proofs.«421285_j9749575762319_1_alg».proof.Proof.Gen.Kernel.Skeleton
import proofs.«421285_j9749575762319_1_alg».proof.Proof.Gen.Kernel.Launch
import proofs.«421285_j9749575762319_1_alg».proof.Proof.Gen.Kernel.Points
import proofs.«421285_j9749575762319_1_alg».proof.Proof.Gen.Kernel.Frame
import proofs.«421285_j9749575762319_1_alg».proof.Proof.Gen.KernelIdeal
import proofs.«421285_j9749575762319_1_alg».proof.Proof.Gen.KernelIdeal.Skeleton
import proofs.«421285_j9749575762319_1_alg».proof.Proof.Gen.KernelIdeal.Launch
import proofs.«421285_j9749575762319_1_alg».proof.Proof.Gen.KernelIdeal.Points
import proofs.«421285_j9749575762319_1_alg».proof.Proof.Gen.KernelIdeal.Frame
import proofs.«421285_j9749575762319_1_alg».proof.Proof.Gen.ReferenceIdeal
import proofs.«421285_j9749575762319_1_alg».proof.Proof.Gen.Pre_finite_inputs
import proofs.«421285_j9749575762319_1_alg».proof.Proof.Gen.KernelIdeal.Value
import proofs.«421285_j9749575762319_1_alg».proof.Proof.Gen.ReferenceIdeal.Run
import proofs.«421285_j9749575762319_1_alg».proof.Proof.Gen.ReferenceIdeal.Read
import proofs.«421285_j9749575762319_1_alg».proof.Proof.Bridge
import Idealize.ShloMosaic.Adequacy
import Idealize.ShloMosaic.Init

noncomputable section

namespace Cert.Proof

open Idealize.ShloMosaic Idealize.SL.Sem

/-- The kernel's program runs and leaves its arguments alone (at the word-level instance). -/
theorem frame_k : Cert.frame_Kernel := fun m ρ _ => Cert.Kernel.Gen.frame m ρ

/-- The same at the exact reals. -/
theorem frame_ki : Cert.frame_KernelIdeal := fun m ρ _ => Cert.KernelIdeal.Gen.frame m ρ

/-- The reference runs and leaves its arguments alone: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories that agree on the arguments both programs end with the two-layer function of the feature matrix plus
    the aggregate of its source rows at the targets. -/
theorem algebraic : Cert.algebraic_KernelIdeal_ReferenceIdeal := by
  intro m ρ m' ρ' hpre hagree
  refine ⟨fun c => Cert.KernelIdeal.Hand.result m c, Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2.1, (hagree c).2.2.2.2.2]
  exact ((Cert.ReferenceIdeal.Read.val_main_v22_eq _ _ _ _ _ _).trans (Cert.ReferenceIdeal.Hand.result_eq _ _ _ _ _ _)).trans
    (Cert.Proof.Bridge.kernel_result m c
      (fun e => Cert.Pre_finite_inputs.Hand.src_in_range _ _ _ _ _ _ (hpre c) e)).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
